-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S50000x256 : Shape := ⟨2, ![50000, 256]⟩
abbrev S2x500000 : Shape := ⟨2, ![2, 500000]⟩
abbrev S512x256 : Shape := ⟨2, ![512, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S50000x256 : S_.BroadcastsInDim S50000x256 (![] : Fin 0 → Fin S50000x256.rank)
  reducesTo_S50000x256_S_d0_1 : S50000x256.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  bcast_S_S2x500000 : S_.BroadcastsInDim S2x500000 (![] : Fin 0 → Fin S2x500000.rank)
  reducesTo_S2x500000_S_d0_1 : S2x500000.ReducesTo [0, 1] S_

variable [Facts]

def fn_part1 {F : FTy → Type} [FloatOps F] (main_arg2 : IVec S2x500000 32) (main_arg5 : FVec F S256x1 .f32) (main_arg6 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x1 .f32 := Host.absf main_arg5
  let main_cst_6 : FVec F S_ .f32 := constant S_ .f32 0x7F800000#32
  let main_v20 : FVec F S256x1 .f32 := broadcastInDim S256x1 ![] bcast_S_S256x1 main_cst_6
  let main_v21 : IVec S256x1 1 := cmpf .olt main_v19 main_v20
  let main_c_7 : IVec S_ 1 := constantI S_ 1 1#1
  let main_v22 : IVec S_ 1 := (fun x v => Host.reduce IntOp.andi x v reducesTo_S256x1_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_c_10 : IVec S_ 32 := constantI S_ 32 0#32
  let main_v29 : IVec S2x500000 32 := broadcastInDim S2x500000 ![] bcast_S_S2x500000 main_c_10
  let main_v30 : IVec S2x500000 1 := cmpi .sge main_arg2 main_v29
  let main_c_11 : IVec S_ 1 := constantI S_ 1 1#1
  let main_v31 : IVec S_ 1 := (fun x v => Host.reduce IntOp.andi x v reducesTo_S2x500000_S_d0_1 h_S_) main_v30 main_c_11
  let main_v32 : IVec S_ 1 := andi main_v28 main_v31
  main_v32

def fn {F : FTy → Type} [FloatOps F] (main_arg0 : FVec F S100000x256 .f32) (main_arg1 : FVec F S50000x256 .f32) (main_arg2 : IVec S2x500000 32) (main_arg3 : FVec F S512x256 .f32) (main_arg4 : FVec F S256 .f32) (main_arg5 : FVec F S256x1 .f32) (main_arg6 : FVec F S1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S50000x256 .f32 := Host.absf main_arg1
  let main_cst_0 : FVec F S_ .f32 := constant S_ .f32 0x7F800000#32
  let main_v5 : FVec F S50000x256 .f32 := broadcastInDim S50000x256 ![] bcast_S_S50000x256 main_cst_0
  let main_v6 : IVec S50000x256 1 := cmpf .olt main_v4 main_v5
  let main_c_1 : IVec S_ 1 := constantI S_ 1 1#1
  let main_v7 : IVec S_ 1 := (fun x v => Host.reduce IntOp.andi x v reducesTo_S50000x256_S_d0_1 h_S_) main_v6 main_c_1
  let main_v8 : IVec S_ 1 := andi main_v3 main_v7
  let main_v9 : FVec F S512x256 .f32 := Host.absf main_arg3
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg2 main_arg5 main_arg6 main_v13 main_v16
-- ==== Kernel.lean ====
abbrev S100000x256 : Shape := ⟨2, ![100000, 256]⟩
abbrev S50000x256 : Shape := ⟨2, ![50000, 256]⟩
abbrev S2x500000 : Shape := ⟨2, ![2, 500000]⟩
abbrev S512x256 : Shape := ⟨2, ![512, 256]⟩
abbrev S256 : Shape := ⟨1, ![256]⟩
abbrev S256x1 : Shape := ⟨2, ![256, 1]⟩
abbrev S1 : Shape := ⟨1, ![1]⟩
abbrev S1x500000 : Shape := ⟨2, ![1, 500000]⟩
abbrev S500000 : Shape := ⟨1, ![500000]⟩
abbrev S500000x1 : Shape := ⟨2, ![500000, 1]⟩
abbrev S500000x256 : Shape := ⟨2, ![500000, 256]⟩
abbrev S256x256 : Shape := ⟨2, ![256, 256]⟩
abbrev S1x256 : Shape := ⟨2, ![1, 256]⟩
abbrev S1x1 : Shape := ⟨2, ![1, 1]⟩
abbrev S4000x256 : Shape := ⟨2, ![4000, 256]⟩
abbrev S4000x1 : Shape := ⟨2, ![4000, 1]⟩
abbrev S4000 : Shape := ⟨1, ![4000]⟩

abbrev nBuf : Space → Nat
  | .hbm => 25
  | .vmem => 11
  | .smem => 0
  | _ => 0

abbrev bufTy : (tb : Table) → Fin (tcTables nBuf tb) → BufTy
  | .hbm, ⟨0, _⟩ => ⟨S100000x256, .f32⟩
  | .hbm, ⟨1, _⟩ => ⟨S50000x256, .f32⟩
  | .hbm, ⟨2, _⟩ => ⟨S2x500000, .i32⟩
  | .hbm, ⟨3, _⟩ => ⟨S512x256, .f32⟩
  | .hbm, ⟨4, _⟩ => ⟨S256, .f32⟩
  | .hbm, ⟨5, _⟩ => ⟨S256x1, .f32⟩
  | .hbm, ⟨6, _⟩ => ⟨S1, .f32⟩
  | .hbm, ⟨7, _⟩ => ⟨S1x500000, .i32⟩
  | .hbm, ⟨8, _⟩ => ⟨S500000, .i32⟩
  | .hbm, ⟨9, _⟩ => ⟨S1x500000, .i32⟩
  | .hbm, ⟨10, _⟩ => ⟨S500000, .i32⟩
  | .hbm, ⟨11, _⟩ => ⟨S100000x256, .bf16⟩
  | .hbm, ⟨12, _⟩ => ⟨S50000x256, .bf16⟩
  | .hbm, ⟨13, _⟩ => ⟨S500000x1, .i32⟩
  | .hbm, ⟨14, _⟩ => ⟨S500000x256, .bf16⟩
  | .hbm, ⟨15, _⟩ => ⟨S500000x1, .i32⟩
  | .hbm, ⟨16, _⟩ => ⟨S500000x256, .bf16⟩
  | .hbm, ⟨17, _⟩ => ⟨S512x256, .bf16⟩
  | .hbm, ⟨18, _⟩ => ⟨S256x256, .bf16⟩
  | .hbm, ⟨19, _⟩ => ⟨S256x256, .bf16⟩
  | .hbm, ⟨20, _⟩ => ⟨S1x256, .f32⟩
  | .hbm, ⟨21, _⟩ => ⟨S1x256, .f32⟩
  | .hbm, ⟨22, _⟩ => ⟨S1x256, .bf16⟩
  | .hbm, ⟨23, _⟩ => ⟨S1x1, .f32⟩
  | .hbm, ⟨24, _⟩ => ⟨S500000x1, .f32⟩
  | .local _ .vmem, ⟨0, _⟩ => ⟨S4000x256, .bf16⟩
  | .local _ .vmem, ⟨1, _⟩ => ⟨S4000x256, .bf16⟩
  | .local _ .vmem, ⟨2, _⟩ => ⟨S4000x256, .bf16⟩
  | .local _ .vmem, ⟨3, _⟩ => ⟨S4000x256, .bf16⟩
  | .local _ .vmem, ⟨4, _⟩ => ⟨S256x256, .bf16⟩
  | .local _ .vmem, ⟨5, _⟩ => ⟨S256x256, .bf16⟩
  | .local _ .vmem, ⟨6, _⟩ => ⟨S1x256, .f32⟩
  | .local _ .vmem, ⟨7, _⟩ => ⟨S1x256, .bf16⟩
  | .local _ .vmem, ⟨8, _⟩ => ⟨S1x1, .f32⟩
  | .local _ .vmem, ⟨9, _⟩ => ⟨S4000x1, .f32⟩
  | .local _ .vmem, ⟨10, _⟩ => ⟨S4000x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_v0 : Ref sig .tc := ⟨.hbm, 13, rfl⟩
abbrev main_v6 : Ref sig .tc := ⟨.hbm, 14, rfl⟩
abbrev main_call1_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bitsLt_bf16_f32 : FTy.bits .bf16 < FTy.bits .f32
  bcast_S500000_S500000x1_0 : S500000.BroadcastsInDim S500000x1 (![0] : Fin 1 → Fin S500000x1.rank)
  slices_S512x256_S256x256_0_0 : S512x256.Slices ![0, 0] S256x256
  slices_S512x256_S256x256_256_0 : S512x256.Slices ![256, 0] S256x256
  shapeCasts_S256_S1x256 : S256.ShapeCasts S1x256
  shapeCasts_S256x1_S1x256 : S256x1.ShapeCasts S1x256
  shapeCasts_S1_S1x1 : S1.ShapeCasts S1x1
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  reduces_S4000x256_S4000 : S4000x256.Reduces [1] S4000
  shapeCasts_S4000_S4000x1 : S4000.ShapeCasts S4000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  gather_S100000x256_S500000x1_S500000x256_1_0_n_n_0_1_1256_wf : GatherDims.WF S100000x256 S500000x1 S500000x256 [1] [0] [] [0] [] 1 ![1, 256]
  gather_S50000x256_S500000x1_S500000x256_1_0_n_n_0_1_1256_wf : GatherDims.WF S50000x256 S500000x1 S500000x256 [1] [0] [] [0] [] 1 ![1, 256]
  dot_S4000x256_S256x256_S4000x256_1_0_0_1_n_n_wf : DotDims.WF S4000x256 S256x256 S4000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S500000x256.size a
  hwx0_0 : ∀ i : grid0.Coords, EltTy.bits .bf16 = 32 ∨ (Rect.block (s := S500000x256) S4000x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x256.size a ≤ S500000x256.size a
  hwx0_1 : ∀ i : grid0.Coords, EltTy.bits .bf16 = 32 ∨ (Rect.block (s := S500000x256) S4000x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .bf16 = 32 ∨ (Rect.block (s := S1x256) S1x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x1.size a ≤ S500000x1.size a
  hwx0_7 : ∀ i : grid0.Coords, EltTy.bits .f32 = 32 ∨ (Rect.block (s := S500000x1) S4000x1.size (cc0_transform_7 i) (hinb0_7 i)).WholeWords (EltTy.packing .f32)

variable [Facts₀]

def gather_S100000x256_S500000x1_S500000x256_1_0_n_n_0_1_1256 : GatherDims S100000x256 S500000x1 S500000x256 where
  offsetDims := [1]
  collapsedSliceDims := [0]
  operandBatchingDims := []
  startIndicesBatchingDims := []
  startIndexMap := [0]
  indexVectorDim := 1
  sliceSizes := ![1, 256]
  wf := gather_S100000x256_S500000x1_S500000x256_1_0_n_n_0_1_1256_wf
def gather_S50000x256_S500000x1_S500000x256_1_0_n_n_0_1_1256 : GatherDims S50000x256 S500000x1 S500000x256 where
  offsetDims := [1]
  collapsedSliceDims := [0]
  operandBatchingDims := []
  startIndicesBatchingDims := []
  startIndexMap := [0]
  indexVectorDim := 1
  sliceSizes := ![1, 256]
  wf := gather_S50000x256_S500000x1_S500000x256_1_0_n_n_0_1_1256_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf

abbrev win0_0 : Pipeline.Window sig grid0 :=
  Pipeline.Window.ofSpec (Memref.whole main_v6) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S4000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S4000x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x256 : Shape := ⟨2, ![100000, 256]⟩
abbrev S50000x256 : Shape := ⟨2, ![50000, 256]⟩
abbrev S2x500000 : Shape := ⟨2, ![2, 500000]⟩
abbrev S512x256 : Shape := ⟨2, ![512, 256]⟩
abbrev S256 : Shape := ⟨1, ![256]⟩
abbrev S256x1 : Shape := ⟨2, ![256, 1]⟩
abbrev S1 : Shape := ⟨1, ![1]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x256 : Shape := ⟨2, ![500000, 256]⟩
abbrev S500000x512 : Shape := ⟨2, ![500000, 512]⟩
abbrev S1x256 : Shape := ⟨2, ![1, 256]⟩
abbrev S1x1 : Shape := ⟨2, ![1, 1]⟩

abbrev nBuf : Space → Nat
  | .hbm => 41
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S50000x256, .f32⟩
  | .hbm, ⟨2, _⟩ => ⟨S2x500000, .i32⟩
  | .hbm, ⟨3, _⟩ => ⟨S512x256, .f32⟩
  | .hbm, ⟨4, _⟩ => ⟨S256, .f32⟩
  | .hbm, ⟨5, _⟩ => ⟨S256x1, .f32⟩
  | .hbm, ⟨6, _⟩ => ⟨S1, .f32⟩
  | .hbm, ⟨7, _⟩ => ⟨S1x500000, .i32⟩
  | .hbm, ⟨8, _⟩ => ⟨S500000, .i32⟩
  | .hbm, ⟨9, _⟩ => ⟨S_, .i32⟩
  | .hbm, ⟨10, _⟩ => ⟨S500000, .i32⟩
  | .hbm, ⟨11, _⟩ => ⟨S500000, .i1⟩
  | .hbm, ⟨12, _⟩ => ⟨S_, .i32⟩
  | .hbm, ⟨13, _⟩ => ⟨S500000, .i32⟩
  | .hbm, ⟨14, _⟩ => ⟨S500000, .i32⟩
  | .hbm, ⟨15, _⟩ => ⟨S500000, .i32⟩
  | .hbm, ⟨16, _⟩ => ⟨S500000x1, .i32⟩
  | .hbm, ⟨17, _⟩ => ⟨S500000x256, .f32⟩
  | .hbm, ⟨18, _⟩ => ⟨S1x500000, .i32⟩
  | .hbm, ⟨19, _⟩ => ⟨S500000, .i32⟩
  | .hbm, ⟨20, _⟩ => ⟨S_, .i32⟩
  | .hbm, ⟨21, _⟩ => ⟨S500000, .i32⟩
  | .hbm, ⟨22, _⟩ => ⟨S500000, .i1⟩
  | .hbm, ⟨23, _⟩ => ⟨S_, .i32⟩
  | .hbm, ⟨24, _⟩ => ⟨S500000, .i32⟩
  | .hbm, ⟨25, _⟩ => ⟨S500000, .i32⟩
  | .hbm, ⟨26, _⟩ => ⟨S500000, .i32⟩
  | .hbm, ⟨27, _⟩ => ⟨S500000x1, .i32⟩
  | .hbm, ⟨28, _⟩ => ⟨S500000x256, .f32⟩
  | .hbm, ⟨29, _⟩ => ⟨S500000x512, .f32⟩
  | .hbm, ⟨30, _⟩ => ⟨S500000x256, .f32⟩
  | .hbm, ⟨31, _⟩ => ⟨S1x256, .f32⟩
  | .hbm, ⟨32, _⟩ => ⟨S500000x256, .f32⟩
  | .hbm, ⟨33, _⟩ => ⟨S500000x256, .f32⟩
  | .hbm, ⟨34, _⟩ => ⟨S_, .f32⟩
  | .hbm, ⟨35, _⟩ => ⟨S500000x256, .f32⟩
  | .hbm, ⟨36, _⟩ => ⟨S500000x256, .f32⟩
  | .hbm, ⟨37, _⟩ => ⟨S500000x1, .f32⟩
  | .hbm, ⟨38, _⟩ => ⟨S1x1, .f32⟩
  | .hbm, ⟨39, _⟩ => ⟨S500000x1, .f32⟩
  | .hbm, ⟨40, _⟩ => ⟨S500000x1, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_cst : Ref sig .tc := ⟨.hbm, 34, rfl⟩
abbrev main_call0_v0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_1_0 : S2x500000.Slices ![1, 0] S1x500000
  concatenates_S500000x256_S500000x256_S500000x512_d1 : Shape.Concatenates [S500000x256, S500000x256] S500000x512 1
  bcast_S256_S1x256_1 : S256.BroadcastsInDim S1x256 (![1] : Fin 1 → Fin S1x256.rank)
  bcast_S1x256_S500000x256_0_1 : S1x256.BroadcastsInDim S500000x256 (![0, 1] : Fin 2 → Fin S500000x256.rank)
  bcast_S_S500000x256 : S_.BroadcastsInDim S500000x256 (![] : Fin 0 → Fin S500000x256.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  gather_S100000x256_S500000x1_S500000x256_1_0_n_n_0_1_1256_wf : GatherDims.WF S100000x256 S500000x1 S500000x256 [1] [0] [] [0] [] 1 ![1, 256]
  gather_S50000x256_S500000x1_S500000x256_1_0_n_n_0_1_1256_wf : GatherDims.WF S50000x256 S500000x1 S500000x256 [1] [0] [] [0] [] 1 ![1, 256]
  dot_S500000x512_S512x256_S500000x256_1_0_0_1_n_n_wf : DotDims.WF S500000x512 S512x256 S500000x256 [1] [0] [0] [1] [] []
  dot_S500000x256_S256x1_S500000x1_1_0_0_1_n_n_wf : DotDims.WF S500000x256 S256x1 S500000x1 [1] [0] [0] [1] [] []

variable [Facts₀]

def gather_S100000x256_S500000x1_S500000x256_1_0_n_n_0_1_1256 : GatherDims S100000x256 S500000x1 S500000x256 where
  offsetDims := [1]
  collapsedSliceDims := [0]
  operandBatchingDims := []
  startIndicesBatchingDims := []
  startIndexMap := [0]
  indexVectorDim := 1
  sliceSizes := ![1, 256]
  wf := gather_S100000x256_S500000x1_S500000x256_1_0_n_n_0_1_1256_wf
def gather_S50000x256_S500000x1_S500000x256_1_0_n_n_0_1_1256 : GatherDims S50000x256 S500000x1 S500000x256 where
  offsetDims := [1]
  collapsedSliceDims := [0]
  operandBatchingDims := []
  startIndicesBatchingDims := []
  startIndexMap := [0]
  indexVectorDim := 1
  sliceSizes := ![1, 256]
  wf := gather_S50000x256_S500000x1_S500000x256_1_0_n_n_0_1_1256_wf
def dot_S500000x512_S512x256_S500000x256_1_0_0_1_n_n : DotDims S500000x512 S512x256 S500000x256 where
  lhsContracting := [1]
  rhsContracting := [0]
  lhsNonContracting := [0]
  rhsNonContracting := [1]
  lhsBatch := []
  rhsBatch := []
  wf := dot_S500000x512_S512x256_S500000x256_1_0_0_1_n_n_wf
def dot_S500000x256_S256x1_S500000x1_1_0_0_1_n_n : DotDims S500000x256 S256x1 S500000x1 where
  lhsContracting := [1]
  rhsContracting := [0]
  lhsNonContracting := [0]
  rhsNonContracting := [1]
  lhsBatch := []
  rhsBatch := []
  wf := dot_S500000x256_S256x1_S500000x1_1_0_0_1_n_n_wf

class Facts : Prop extends Facts₀ where

variable [Facts]
-- ==== Proof.EdgeSpec.lean ====
/-
  The edge decoder as one function of its argument arrays.

  Edge e carries two row numbers, idx[0, e] into the user table and idx[1, e] into the movie table. Its score is a
  two-layer perceptron on the two gathered rows: hidden unit j is
      relu( sum_k user[r0, k] * W1[k, j]  +  sum_k movie[r1, k] * W1[256 + k, j]  +  b1[j] ),
  and the score is  sum_j hidden_j * W2[j, 0] + b2[0].  A row number is read signed and clamped into its table.

  The same hidden unit written with ONE contraction over the 512 columns of the joined row [user row | movie row]
  is the sum above: a finite sum over 512 positions is the sum over the first 256 plus the sum over the last 256,
  which needs only that addition of extended reals is associative and commutative.
-/
import Idealize.ShloMosaic.PureOps.Ideal
import Idealize.ShloMosaic.Lib.ValueIdx
import Idealize.ShloMosaic.Lib.ValueIdxRank1
import Mathlib.Algebra.BigOperators.Fin

noncomputable section

namespace EdgeMlp

open Idealize.ShloMosaic Idealize.ShloMosaic.ValueIdx

/-- A row number read signed and clamped into a table of N rows. -/
def rowOf (N : Nat) (hN : 0 < N) (w : BitVec 32) : Fin N := ⟨min w.toInt.toNat (N - 1), by omega⟩

/-- Position k of the first half of a 512-long axis. -/
def lo (k : Fin 256) : Fin 512 := ⟨k.val, by omega⟩
/-- Position k of the second half of a 512-long axis. -/
def hi (k : Fin 256) : Fin 512 := ⟨256 + k.val, by omega⟩

/-- One edge's score from its two gathered rows u, m, the two halves A, B of the first layer's weights, the first
    layer's bias, the second layer's weights and its bias. The rectifier's zero is kept as the word it is printed as. -/
def mlpRow (u m : Fin 256 → EReal) (A B : Fin 256 → Fin 256 → EReal) (b1 w2 : Fin 256 → EReal) (b2 : EReal) : EReal :=
  (∑ j : Fin 256, max (((∑ k : Fin 256, u k * A k j) + (∑ k : Fin 256, m k * B k j)) + b1 j)
      (Ideal.ofBits .f32 0x00000000#32) * w2 j) + b2

/-- The whole result: the score of every edge, as a function of the seven argument arrays. -/
def score (user : (⟨2, ![100000, 256]⟩ : Shape).Idx → EReal) (movie : (⟨2, ![50000, 256]⟩ : Shape).Idx → EReal)
    (idx : (⟨2, ![2, 500000]⟩ : Shape).Idx → BitVec 32) (W1 : (⟨2, ![512, 256]⟩ : Shape).Idx → EReal)
    (b1 : (⟨1, ![256]⟩ : Shape).Idx → EReal) (W2 : (⟨2, ![256, 1]⟩ : Shape).Idx → EReal)
    (b2 : (⟨1, ![1]⟩ : Shape).Idx → EReal) : (⟨2, ![500000, 1]⟩ : Shape).Idx → EReal :=
  fun i => mlpRow
    (fun k => user (ix2 (rowOf 100000 (by decide) (idx (ix2 (0 : Fin 2) (i 0)))) k))
    (fun k => movie (ix2 (rowOf 50000 (by decide) (idx (ix2 (1 : Fin 2) (i 0)))) k))
    (fun k j => W1 (ix2 (lo k) j)) (fun k j => W1 (ix2 (hi k) j))
    (fun j => b1 (ix1 j)) (fun j => W2 (ix2 j (0 : Fin 1))) (b2 (ix1 (0 : Fin 1)))

/-- A sum over 512 positions is the sum over the first half plus the sum over the second half. -/
theorem sum_halves (f : Fin 512 → EReal) : ∑ k : Fin 512, f k = ∑ k : Fin 256, f (lo k) + ∑ k : Fin 256, f (hi k) :=
  Fin.sum_univ_add (a := 256) (b := 256) f

/-- A contraction of the joined row against all 512 weight rows is the two half contractions added. -/
theorem contract_joined (x : Fin 512 → EReal) (W : Fin 512 → EReal) (u m : Fin 256 → EReal)
    (hu : ∀ k, x (lo k) = u k) (hm : ∀ k, x (hi k) = m k) :
    ∑ k : Fin 512, x k * W k = (∑ k : Fin 256, u k * W (lo k)) + (∑ k : Fin 256, m k * W (hi k)) := by
  rw [sum_halves]
  simp only [hu, hm]

end EdgeMlp

end
-- ==== Proof.BodyRow.lean ====
/-
  What the kernel body stores, read one row at a time.

  The body's one store writes a [4000, 1] column. Row p of it depends only on row p of the two gathered blocks
  u and m, on the two [256, 256] weight blocks, and on the three small rows: it is the perceptron score of
  (u[p, :], m[p, :]). The two matrix products start from a zero accumulator, so each entry is the plain sum of
  products along the contracted axis; the lane reduction is the plain sum along the row; the changes of float
  format are the identity on extended reals.
-/
import proofs.«401891_j41059887350179_3_alg».proof.Proof.Gen.KernelIdeal.Skeleton
import proofs.«401891_j41059887350179_3_alg».proof.Proof.EdgeSpec
import Idealize.ShloMosaic.Lib.Pipeline.Value
import Idealize.ShloMosaic.Lib.ValueIdx
import Idealize.ShloMosaic.Lib.ValueIdxRank1
import Idealize.ShloMosaic.PureOps.Ideal.Laws

noncomputable section

namespace Cert.KernelIdeal.Body

open Cert.KernelIdeal Cert.KernelIdeal.Gen Idealize.ShloMosaic Idealize.ShloMosaic.ValueIdx EdgeMlp

/-! ## The matrix product's operand indices -/

theorem lhs_axis0 (i : S4000x256.Idx) (q : dot_S4000x256_S256x256_S4000x256_1_0_0_1_n_n.contr.Idx) :
    (dot_S4000x256_S256x256_S4000x256_1_0_0_1_n_n.lhsIdx i q 0).val = (i 0).val := by
  unfold DotDims.lhsIdx
  rw [dif_neg (show ¬(0 : Fin S4000x256.rank) ∈ dot_S4000x256_S256x256_S4000x256_1_0_0_1_n_n.lhsBatch by decide), dif_pos (show (0 : Fin S4000x256.rank) ∈ dot_S4000x256_S256x256_S4000x256_1_0_0_1_n_n.lhsNonContracting by decide)]
  rfl
theorem lhs_axis1 (i : S4000x256.Idx) (q : dot_S4000x256_S256x256_S4000x256_1_0_0_1_n_n.contr.Idx) :
    (dot_S4000x256_S256x256_S4000x256_1_0_0_1_n_n.lhsIdx i q 1).val = (q ⟨0, by decide⟩).val :=
  dot_S4000x256_S256x256_S4000x256_1_0_0_1_n_n.lhsIdx_val_of_single rfl i q
theorem rhs_axis0 (i : S4000x256.Idx) (q : dot_S4000x256_S256x256_S4000x256_1_0_0_1_n_n.contr.Idx) :
    (dot_S4000x256_S256x256_S4000x256_1_0_0_1_n_n.rhsIdx i q 0).val = (q ⟨0, by decide⟩).val :=
  dot_S4000x256_S256x256_S4000x256_1_0_0_1_n_n.rhsIdx_val_of_single rfl i q
theorem rhs_axis1 (i : S4000x256.Idx) (q : dot_S4000x256_S256x256_S4000x256_1_0_0_1_n_n.contr.Idx) :
    (dot_S4000x256_S256x256_S4000x256_1_0_0_1_n_n.rhsIdx i q 1).val = (i 1).val := by
  unfold DotDims.rhsIdx
  rw [dif_neg (show ¬(1 : Fin S256x256.rank) ∈ dot_S4000x256_S256x256_S4000x256_1_0_0_1_n_n.rhsBatch by decide), dif_pos (show (1 : Fin S256x256.rank) ∈ dot_S4000x256_S256x256_S4000x256_1_0_0_1_n_n.rhsNonContracting by decide)]
  rfl

/-- Entry (p, j) of a [4000, 256] by [256, 256] product into a zero accumulator: the sum over k of l[p, k] * r[k, j]. -/
theorem product_at (l : FVec Ideal S4000x256 .bf16) (r : FVec Ideal S256x256 .bf16) (p : Fin 4000) (j : Fin 256) :
    matmul dot_S4000x256_S256x256_S4000x256_1_0_0_1_n_n none l r (constant (F := Ideal) S4000x256 .f32 0x00000000#32) (ix2 p j)
      = ∑ k : Fin 256, l (ix2 p k) * r (ix2 k j) := by
  simp only [matmul]
  rw [Ideal.matmul_constant_zero_apply, ← Equiv.sum_comp (contrEquiv1 dot_S4000x256_S256x256_S4000x256_1_0_0_1_n_n 256 rfl rfl).symm]
  refine Finset.sum_congr rfl fun k _ => ?_
  have hk := contrEquiv1_symm_val dot_S4000x256_S256x256_S4000x256_1_0_0_1_n_n 256 rfl rfl k
  have el : dot_S4000x256_S256x256_S4000x256_1_0_0_1_n_n.lhsIdx (ix2 p j) ((contrEquiv1 dot_S4000x256_S256x256_S4000x256_1_0_0_1_n_n 256 rfl rfl).symm k) = ix2 p k := funext fun a => Fin.ext (by
    match a with
    | ⟨0, _⟩ => exact lhs_axis0 _ _
    | ⟨1, _⟩ => exact (lhs_axis1 _ _).trans hk)
  have er : dot_S4000x256_S256x256_S4000x256_1_0_0_1_n_n.rhsIdx (ix2 p j) ((contrEquiv1 dot_S4000x256_S256x256_S4000x256_1_0_0_1_n_n 256 rfl rfl).symm k) = ix2 k j := funext fun a => Fin.ext (by
    match a with
    | ⟨0, _⟩ => exact (rhs_axis0 _ _).trans hk
    | ⟨1, _⟩ => exact rhs_axis1 _ _)
  rw [el, er]

/-! ## The lane sum, and the small layout steps -/

/-- The lane reduction at row p: the sum of the row. -/
theorem lane_sum_at (src : FVec Ideal S4000x256 .f32) (h : S4000x256.Reduces [1] S4000) (hφ : FKind.Formats .f32)
    (hacc : (0x00000000#32 : BitVec 32) = 0x00000000#32) (p : Fin 4000) :
    multiReduction .add [1] S4000 src 0x00000000#32 h hφ hacc (ix1 p) = ∑ k : Fin 256, src (ix2 p k) := by
  refine (Ideal.multiReduction_add_single src 0x00000000#32 h hφ hacc (ix1 p)).trans ?_
  refine Finset.sum_congr rfl fun k _ => congrArg src ?_
  funext c
  apply Fin.ext
  match c with
  | ⟨0, _⟩ => rfl
  | ⟨1, _⟩ => rfl

/-- A [4000] vector recast as a [4000, 1] column: entry (p, 0) is entry p. -/
theorem column_at (v : S4000.Idx → EReal) (h : S4000.ShapeCasts S4000x1) (p : Fin 4000) :
    shapeCast S4000x1 v h (ix2 p (0 : Fin 1)) = v (ix1 p) :=
  shapeCast_apply v h _ _ (by rw [Shape.rowMajor_val_two, Shape.rowMajor_val_one]; show p.val = p.val * 1 + 0; omega)

/-- A [1, 256] row broadcast down 4000 rows: entry (p, j) is entry (0, j). -/
theorem row_bcast_at (v : S1x256.Idx → EReal) (h : S1x256.Broadcasts S4000x256) (p : Fin 4000) (j : Fin 256) :
    broadcastTo S4000x256 v h (ix2 p j) = v (ix2 (0 : Fin 1) j) :=
  broadcastTo_apply v h _ _ (fun a => by
    match a with
    | ⟨0, _⟩ => rfl
    | ⟨1, _⟩ => rfl)

/-- A [1, 1] entry broadcast down a [4000, 1] column. -/
theorem one_bcast_at (v : S1x1.Idx → EReal) (h : S1x1.Broadcasts S4000x1) (p : Fin 4000) :
    broadcastTo S4000x1 v h (ix2 p (0 : Fin 1)) = v (ix2 (0 : Fin 1) (0 : Fin 1)) :=
  broadcastTo_apply v h _ _ (fun a => by
    match a with
    | ⟨0, _⟩ => rfl
    | ⟨1, _⟩ => rfl)

end Cert.KernelIdeal.Body

end
-- ==== Proof.BodyScore.lean ====
/-
  Row p of what the kernel body stores is the perceptron score of row p of its two gathered blocks.
-/
import proofs.«401891_j41059887350179_3_alg».proof.Proof.BodyRow

noncomputable section

namespace Cert.KernelIdeal.Body

open Cert.KernelIdeal Cert.KernelIdeal.Gen Idealize.ShloMosaic Idealize.ShloMosaic.ValueIdx EdgeMlp

/-- The stored column at row p: the lane sum over j of relu(u[p,:]·A[:,j] + m[p,:]·B[:,j] + b1[j]) * w2[j], plus b2. -/
theorem payload_row (x0 x1 : FVec Ideal S4000x256 .bf16) (x2 x3 : FVec Ideal S256x256 .bf16) (x4 : FVec Ideal S1x256 .f32)
    (x5 : FVec Ideal S1x256 .bf16) (x6 : FVec Ideal S1x1 .f32) (p : Fin 4000) :
    k0_pay1 (F := Ideal) x0 x1 x2 x3 x4 x5 x6 (ix2 p (0 : Fin 1))
      = mlpRow (fun k => x0 (ix2 p k)) (fun k => x1 (ix2 p k)) (fun k j => x2 (ix2 k j)) (fun k j => x3 (ix2 k j))
          (fun j => x4 (ix2 (0 : Fin 1) j)) (fun j => x5 (ix2 (0 : Fin 1) j)) (x6 (ix2 (0 : Fin 1) (0 : Fin 1))) := by
  unfold k0_pay1 mlpRow
  dsimp only
  simp only [shapeCast_self]
  rw [addf_apply, column_at, one_bcast_at]
  refine congrArg (· + x6 (ix2 (0 : Fin 1) (0 : Fin 1))) ?_
  refine (lane_sum_at _ _ _ _ p).trans ?_
  refine Finset.sum_congr rfl fun j _ => ?_
  rw [extf_apply, mulf_apply, truncf_apply, maximumf_apply, row_bcast_at, addf_apply, addf_apply, row_bcast_at,
    broadcast_apply, product_at, product_at]
  rfl

end Cert.KernelIdeal.Body

end
-- ==== Proof.LibRowGatherScatter.lean ====
/-
  Three host indexing operations read at an index, for any extents: the gather of whole rows of an
  [N × C] table named by an [E × 1] column of row numbers (jnp's table[idx, :]), and the accumulating
  float scatters that add E updates (rows of an [E × C] array, or the entries of an [E] vector) into the
  rows (entries) those row numbers name (jnp's .at[idx].add, segment_sum), at the exact-arithmetic instance
  where the accumulation is a plain sum.
-/
import Idealize.ShloMosaic.PureOps.Ideal
import Idealize.ShloMosaic.PureOps.Contract
import Idealize.ShloMosaic.Lib.ValueIdx

noncomputable section

namespace Idealize.ShloMosaic.RowOps

open Idealize.ShloMosaic Idealize.ShloMosaic.ValueIdx

/-- Row e of the gathered array is the table's row at e's row number, read signed and clamped into the table. -/
theorem gather_rows_apply {α : Type} {N C E w : Nat} (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1) (hss : d.sliceSizes = ![1, C])
    (x : (⟨2, ![N, C]⟩ : Shape).Idx → α) (idx : IVec ⟨2, ![E, 1]⟩ w) (e : Fin E) (k : Fin C) (hN : 0 < N) :
    Host.gather d x idx (ix2 e k) = x (ix2 (⟨min (idx (ix2 e (0 : Fin 1))).toInt.toNat (N - 1), by omega⟩ : Fin N) k) := by
  unfold Host.gather
  congr 1
  funext a
  -- the result's one batch axis is axis 0 (axis 1 is its offset axis); no operand axis is a batching axis
  have hbd : d.batchDims = [0] := by
    show (⟨2, ![E, C]⟩ : Shape).kept d.offsetDims = [0]
    rw [hoff]; rfl
  have hob0 : ∀ a : Fin 2, a ∉ d.operandBatchingDims := fun a => by rw [hob]; exact List.not_mem_nil
  -- every entry of a one-element list of axes is that axis, whatever position it is read at
  have hall0 : ∀ X ∈ d.batchDims, X = 0 := fun X hX => by rw [hbd] at hX; exact List.mem_singleton.1 hX
  have hall1 : ∀ X ∈ d.offsetDims, X = 1 := fun X hX => by rw [hoff] at hX; exact List.mem_singleton.1 hX
  have coord0 : ∀ X : Fin 2, X = 0 → ((ix2 e k) X).val = e.val := fun X h => by subst h; rfl
  have coord1 : ∀ X : Fin 2, X = 1 → ((ix2 e k) X).val = k.val := fun X h => by subst h; rfl
  match a with
  | ⟨0, _⟩ =>
    -- operand axis 0: collapsed (slice size 1, no offset coordinate) and start-indexed: the clamped row number
    apply Fin.ext
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 e k) idx 0 + d.batchCoord (ix2 e k) 0 + d.offCoord (ix2 e k) 0 = min (idx (ix2 e 0)).toInt.toNat (N - 1)
    rw [GatherDims.batchCoord_eq_zero _ _ _ (hob0 0), GatherDims.offCoord_eq_zero _ _ _ hk]
    simp only [Nat.add_zero]
    unfold GatherDims.start
    rw [dif_pos hm]
    show min (idx _).toInt.toNat (N - d.sliceSizes 0) = _
    rw [hsl]
    congr 3
    congr 1
    -- the start index is read at (e, 0): e from the result's batch coordinate, 0 the one component of the index vector
    funext b
    match b with
    | ⟨0, _⟩ =>
      unfold GatherDims.siIdx
      rw [dif_neg (by rw [hivd]; simp)]
      unfold GatherDims.siCoord
      apply Fin.ext
      simp only [Fin.val_cast]
      exact coord0 _ (hall0 _ (List.getElem_mem _))
    | ⟨1, _⟩ =>
      unfold GatherDims.siIdx
      rw [dif_pos (by rw [hivd])]
      apply Fin.ext
      show List.idxOf (0 : Fin 2) d.startIndexMap = 0
      rw [hsim]; simp
  | ⟨1, _⟩ =>
    -- operand axis 1: not start-indexed (start 0), kept whole: the offset coordinate is the result's coordinate on axis 1
    apply Fin.ext
    have hk : (1 : Fin 2) ∈ d.sKept := by rw [GatherDims.mem_sKept, hcoll]; exact ⟨by simp, hob0 1⟩
    have hm : (1 : Fin 2) ∉ d.startIndexMap := by rw [hsim]; simp
    show d.start (ix2 e k) idx 1 + d.batchCoord (ix2 e k) 1 + d.offCoord (ix2 e k) 1 = k.val
    rw [GatherDims.batchCoord_eq_zero _ _ _ (hob0 1)]
    unfold GatherDims.start GatherDims.offCoord
    rw [dif_neg hm, dif_pos hk]
    simp only [Nat.add_zero, Nat.zero_add]
    exact coord1 _ (hall1 _ (List.getElem_mem _))

/-- Where one update lands: update (e, k') lands on (i, k) exactly when e's row number, read signed, is i and k' is k.
    On axis 0 (inserted: no window coordinate) the landing coordinate is the row number itself, not clamped, so a
    negative one or one past the table lands nowhere; on axis 1 (start 0) it is the update's own coordinate k', always
    inside the row. -/
private theorem resultIdx_rows_iff {N C E w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1) (idx : IVec ⟨2, ![E, 1]⟩ w) (e : Fin E) (k' : Fin C) (i : Fin N) (k : Fin C) :
    d.resultIdx? (ix2 e k') idx = some (ix2 i k) ↔ (idx (ix2 e (0 : Fin 1))).toInt = (i.val : Int) ∧ k' = k := by
  -- the updates' one scatter axis is axis 0 (axis 1 is their window axis); the operand's one window axis is axis 1
  have hus : d.uScatter = [0] := by
    show (⟨2, ![E, C]⟩ : Shape).kept d.updateWindowDims = [0]
    rw [huw]; rfl
  have hsk : d.sKept = [1] := by
    show (⟨2, ![N, C]⟩ : Shape).kept d.insertedWindowDims = [1]
    rw [hiw]; rfl
  have hall0 : ∀ X ∈ d.uScatter, X = 0 := fun X hX => by rw [hus] at hX; exact List.mem_singleton.1 hX
  have hall1 : ∀ X ∈ d.updateWindowDims, X = 1 := fun X hX => by rw [huw] at hX; exact List.mem_singleton.1 hX
  have coord0 : ∀ X : Fin 2, X = 0 → ((ix2 e k') X).val = e.val := fun X h => by subst h; rfl
  have coord1 : ∀ X : Fin 2, X = 1 → ((ix2 e k') X).val = k'.val := fun X h => by subst h; rfl
  -- the four ingredients of the landing index: start and window coordinate on each operand axis
  have hst0 : d.start (ix2 e k') idx 0 = (idx (ix2 e (0 : Fin 1))).toInt := by
    unfold ScatterDims.start
    rw [dif_pos (by rw [hsd]; exact List.mem_singleton.mpr rfl)]
    congr 2
    funext b
    match b with
    | ⟨0, _⟩ =>
      unfold ScatterDims.siIdx
      rw [dif_neg (by rw [hivd]; simp)]
      unfold ScatterDims.siCoord
      apply Fin.ext
      simp only [Fin.val_cast]
      exact coord0 _ (hall0 _ (List.getElem_mem _))
    | ⟨1, _⟩ =>
      unfold ScatterDims.siIdx
      rw [dif_pos (by rw [hivd])]
      apply Fin.ext
      show List.idxOf (0 : Fin 2) d.scatterDimsToOperandDims = 0
      rw [hsd]; simp
  have hw0 : d.window (ix2 e k') 0 = 0 := by
    unfold ScatterDims.window; rw [dif_neg (by rw [hsk]; simp)]
  have hst1 : d.start (ix2 e k') idx 1 = 0 := by
    unfold ScatterDims.start; rw [dif_neg (by rw [hsd]; simp)]
  have hw1 : d.window (ix2 e k') 1 = k'.val := by
    unfold ScatterDims.window; rw [dif_pos (by rw [hsk]; simp)]
    exact coord1 _ (hall1 _ (List.getElem_mem _))
  unfold ScatterDims.resultIdx?
  split
  · -- the landing index is inside the operand: compare it with (i, k) coordinate by coordinate
    rename_i h
    rw [Option.some.injEq]
    constructor
    · intro hf
      have h0 : (d.start (ix2 e k') idx 0 + d.window (ix2 e k') 0).toNat = i.val := congrArg (fun f => (f 0).val) hf
      have h1 : (d.start (ix2 e k') idx 1 + d.window (ix2 e k') 1).toNat = k.val := congrArg (fun f => (f 1).val) hf
      have hh := (h 0).1
      rw [hst0, hw0] at h0 hh
      rw [hst1, hw1] at h1
      exact ⟨by omega, Fin.ext (by omega)⟩
    · rintro ⟨hi, rfl⟩
      funext a
      match a with
      | ⟨0, _⟩ =>
        apply Fin.ext
        show (d.start (ix2 e k') idx 0 + d.window (ix2 e k') 0).toNat = i.val
        rw [hst0, hw0, hi]; omega
      | ⟨1, _⟩ =>
        apply Fin.ext
        show (d.start (ix2 e k') idx 1 + d.window (ix2 e k') 1).toNat = k'.val
        rw [hst1, hw1]; omega
  · -- the landing index leaves the operand: then the row number is no row of the table, i least of all
    rename_i h
    constructor
    · intro hf; exact absurd hf (by simp)
    · rintro ⟨hi, rfl⟩
      exfalso; apply h
      intro a
      match a with
      | ⟨0, _⟩ =>
        show 0 ≤ d.start (ix2 e k') idx 0 + d.window (ix2 e k') 0 ∧ d.start (ix2 e k') idx 0 + d.window (ix2 e k') 0 < (N : Int)
        rw [hst0, hw0, hi]; have := i.isLt; omega
      | ⟨1, _⟩ =>
        show 0 ≤ d.start (ix2 e k') idx 1 + d.window (ix2 e k') 1 ∧ d.start (ix2 e k') idx 1 + d.window (ix2 e k') 1 < (C : Int)
        rw [hst1, hw1]; have := k'.isLt; omega

/-- Entry (i, k) after the scatter: what was there plus the updates' entries (e, k) over the e whose row number is i. -/
theorem scatterAdd_rows_apply {N C E w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![E, 1]⟩ w) (upd : (⟨2, ![E, C]⟩ : Shape).Idx → EReal)
    (i : Fin N) (k : Fin C) :
    Ideal.hostScatterAdd d x idx upd (ix2 i k)
      = x (ix2 i k) + ∑ e : Fin E, if (idx (ix2 e (0 : Fin 1))).toInt = (i.val : Int) then upd (ix2 e k) else 0 := by
  unfold Ideal.hostScatterAdd
  congr 1
  -- the sum over the updates that land on (i, k), as a double sum over (e, k') of the updates guarded by "lands on (i, k)"
  rw [Finset.sum_filter, sum_idx2]
  refine Finset.sum_congr rfl fun e _ => ?_
  by_cases he : (idx (ix2 e (0 : Fin 1))).toInt = (i.val : Int)
  · -- row e is aimed at row i: of its C entries exactly the one in column k lands on (i, k)
    rw [if_pos he, Finset.sum_eq_single k]
    · rw [if_pos ((resultIdx_rows_iff d huw hiw hsd hivd idx e k i k).2 ⟨he, rfl⟩)]
    · intro k' _ hk'
      rw [if_neg fun h => hk' ((resultIdx_rows_iff d huw hiw hsd hivd idx e k' i k).1 h).2]
    · intro h; exact absurd (Finset.mem_univ k) h
  · -- row e is aimed elsewhere (or nowhere): none of its entries lands on (i, k)
    rw [if_neg he]
    refine Finset.sum_eq_zero fun k' _ => ?_
    rw [if_neg fun h => he ((resultIdx_rows_iff d huw hiw hsd hivd idx e k' i k).1 h).1]

/-- A sum over a rank-1 index set is the sum over its one coordinate. -/
private theorem sum_idx1 {M : Type*} [AddCommMonoid M] {n : Nat} (f : (⟨1, ![n]⟩ : Shape).Idx → M) :
    ∑ j, f j = ∑ a : Fin n, f (ix1 a) := by
  let φ : (⟨1, ![n]⟩ : Shape).Idx ≃ Fin n :=
    { toFun := fun j => j 0, invFun := fun a => ix1 a, left_inv := fun j => (eq_ix1 j).symm, right_inv := fun _ => rfl }
  rw [← Equiv.sum_comp φ.symm f]
  rfl

/-- Where one update of a vector lands: update e lands on entry i exactly when e's row number, read signed, is i (the
    operand's one axis is inserted: the landing coordinate is the row number itself, not clamped). -/
private theorem resultIdx_vec_iff {N E w : Nat} (d : ScatterDims ⟨1, ![N]⟩ ⟨2, ![E, 1]⟩ ⟨1, ![E]⟩)
    (huw : d.updateWindowDims = []) (hiw : d.insertedWindowDims = [0]) (hsd : d.scatterDimsToOperandDims = [0])
    (hivd : d.indexVectorDim = 1) (idx : IVec ⟨2, ![E, 1]⟩ w) (e : Fin E) (i : Fin N) :
    d.resultIdx? (ix1 e) idx = some (ix1 i) ↔ (idx (ix2 e (0 : Fin 1))).toInt = (i.val : Int) := by
  -- the operand has no window axis
  have hsk : d.sKept = [] := by
    show (⟨1, ![N]⟩ : Shape).kept d.insertedWindowDims = []
    rw [hiw]; rfl
  have coord0 : ∀ X : Fin 1, ((ix1 e) X).val = e.val := fun X => by
    obtain rfl : X = 0 := Subsingleton.elim _ _
    rfl
  have hst0 : d.start (ix1 e) idx 0 = (idx (ix2 e (0 : Fin 1))).toInt := by
    unfold ScatterDims.start
    rw [dif_pos (by rw [hsd]; exact List.mem_singleton.mpr rfl)]
    congr 2
    funext b
    match b with
    | ⟨0, _⟩ =>
      unfold ScatterDims.siIdx
      rw [dif_neg (by rw [hivd]; simp)]
      unfold ScatterDims.siCoord
      apply Fin.ext
      simp only [Fin.val_cast]
      exact coord0 _
    | ⟨1, _⟩ =>
      unfold ScatterDims.siIdx
      rw [dif_pos (by rw [hivd])]
      apply Fin.ext
      show List.idxOf (0 : Fin 1) d.scatterDimsToOperandDims = 0
      rw [hsd]; simp
  have hw0 : d.window (ix1 e) 0 = 0 := by
    unfold ScatterDims.window; rw [dif_neg (by rw [hsk]; simp)]
  have hax : ∀ a : Fin 1, a = 0 := fun a => Subsingleton.elim _ _
  unfold ScatterDims.resultIdx?
  split
  · rename_i h
    rw [Option.some.injEq]
    constructor
    · intro hf
      have h0 : (d.start (ix1 e) idx 0 + d.window (ix1 e) 0).toNat = i.val := congrArg (fun f => (f 0).val) hf
      have hh := (h 0).1
      rw [hst0, hw0] at h0 hh
      omega
    · intro hi
      funext a
      obtain rfl := hax a
      apply Fin.ext
      show (d.start (ix1 e) idx 0 + d.window (ix1 e) 0).toNat = i.val
      rw [hst0, hw0, hi]; omega
  · rename_i h
    constructor
    · intro hf; exact absurd hf (by simp)
    · intro hi
      exfalso; apply h
      intro a
      obtain rfl := hax a
      show 0 ≤ d.start (ix1 e) idx 0 + d.window (ix1 e) 0 ∧ d.start (ix1 e) idx 0 + d.window (ix1 e) 0 < (N : Int)
      rw [hst0, hw0, hi]; have := i.isLt; omega

/-- Entry i after the scatter of a vector: what was there plus the updates over the e whose row number is i. -/
theorem scatterAdd_vec_apply {N E w : Nat} (d : ScatterDims ⟨1, ![N]⟩ ⟨2, ![E, 1]⟩ ⟨1, ![E]⟩)
    (huw : d.updateWindowDims = []) (hiw : d.insertedWindowDims = [0]) (hsd : d.scatterDimsToOperandDims = [0])
    (hivd : d.indexVectorDim = 1)
    (x : (⟨1, ![N]⟩ : Shape).Idx → EReal) (idx : IVec ⟨2, ![E, 1]⟩ w) (upd : (⟨1, ![E]⟩ : Shape).Idx → EReal) (i : Fin N) :
    Ideal.hostScatterAdd d x idx upd (ix1 i)
      = x (ix1 i) + ∑ e : Fin E, if (idx (ix2 e (0 : Fin 1))).toInt = (i.val : Int) then upd (ix1 e) else 0 := by
  unfold Ideal.hostScatterAdd
  congr 1
  rw [Finset.sum_filter, sum_idx1]
  refine Finset.sum_congr rfl fun e _ => ?_
  by_cases he : (idx (ix2 e (0 : Fin 1))).toInt = (i.val : Int)
  · rw [if_pos he, if_pos ((resultIdx_vec_iff d huw hiw hsd hivd idx e i).2 he)]
  · rw [if_neg he, if_neg fun h => he ((resultIdx_vec_iff d huw hiw hsd hivd idx e i).1 h)]

end Idealize.ShloMosaic.RowOps

end
-- ==== Proof.HostSide.lean ====
/-
  What the pallas_call finds in its seven input arrays, as functions of the program's arguments.

  Before the call the program gathers a user row and a movie row per edge (tables cast to the narrow float format,
  which changes no extended real; row numbers read off the two rows of the index array, clamped into the table by the
  gather), splits the first layer's weights into its top and bottom 256 rows, and lays the small parameters out as
  rows: b1 as [1, 256], W2 (a column) as a [1, 256] row, b2 as [1, 1].
-/
import proofs.«401891_j41059887350179_3_alg».proof.Proof.Gen.KernelIdeal.Frame
import proofs.«401891_j41059887350179_3_alg».proof.Proof.EdgeSpec
import proofs.«401891_j41059887350179_3_alg».proof.Proof.LibRowGatherScatter
import Idealize.ShloMosaic.Lib.StableHlo.Run
import Idealize.ShloMosaic.Lib.Pipeline.Value
import Idealize.ShloMosaic.Lib.ValueLayout
import Idealize.ShloMosaic.Lib.ValueIdx
import Idealize.ShloMosaic.Lib.ValueIdxRank1
import Idealize.ShloMosaic.PureOps.Ideal

noncomputable section

namespace Cert.KernelIdeal.Host

open Cert.KernelIdeal Cert.KernelIdeal.Gen Idealize.ShloMosaic Idealize.ShloMosaic.TcCoe Idealize.SL.Sem
open Idealize.ShloMosaic.StableHlo Idealize.ShloMosaic.ValueIdx EdgeMlp

/-! ## The host terms -/

/-- The gathered user rows. -/
def gatheredUsers (a0 : FVec Ideal S100000x256 .f32) (a2 : IVec S2x500000 32) : FVec Ideal S500000x256 .bf16 :=
  Host.gather gather_S100000x256_S500000x1_S500000x256_1_0_n_n_0_1_1256 (truncf (F := Ideal) .bf16 a0 bitsLt_bf16_f32)
    (broadcastInDim S500000x1 ![0] bcast_S500000_S500000x1_0
      (shapeCast S500000 (extractStridedSlice S1x500000 ![0, 0] a2 slices_S2x500000_S1x500000_0_0) shapeCasts_S1x500000_S500000))

/-- The gathered movie rows. -/
def gatheredMovies (a1 : FVec Ideal S50000x256 .f32) (a2 : IVec S2x500000 32) : FVec Ideal S500000x256 .bf16 :=
  Host.gather gather_S50000x256_S500000x1_S500000x256_1_0_n_n_0_1_1256 (truncf (F := Ideal) .bf16 a1 bitsLt_bf16_f32)
    (broadcastInDim S500000x1 ![0] bcast_S500000_S500000x1_0
      (shapeCast S500000 (extractStridedSlice S1x500000 ![1, 0] a2 slices_S2x500000_S1x500000_1_0) shapeCasts_S1x500000_S500000))

/-- The first layer's weights, rows 0 to 255 and rows 256 to 511. -/
def w1Top (a3 : FVec Ideal S512x256 .f32) : FVec Ideal S256x256 .bf16 :=
  extractStridedSlice S256x256 ![0, 0] (truncf (F := Ideal) .bf16 a3 bitsLt_bf16_f32) slices_S512x256_S256x256_0_0
def w1Bottom (a3 : FVec Ideal S512x256 .f32) : FVec Ideal S256x256 .bf16 :=
  extractStridedSlice S256x256 ![256, 0] (truncf (F := Ideal) .bf16 a3 bitsLt_bf16_f32) slices_S512x256_S256x256_256_0

/-- The small parameters as rows. -/
def b1Row (a4 : FVec Ideal S256 .f32) : FVec Ideal S1x256 .f32 := shapeCast S1x256 a4 shapeCasts_S256_S1x256
def w2Row (a5 : FVec Ideal S256x1 .f32) : FVec Ideal S1x256 .bf16 :=
  truncf (F := Ideal) .bf16 (shapeCast S1x256 a5 shapeCasts_S256x1_S1x256) bitsLt_bf16_f32
def b2One (a6 : FVec Ideal S1 .f32) : FVec Ideal S1x1 .f32 := shapeCast S1x1 a6 shapeCasts_S1_S1x1

/-! ## Those terms at an index -/

/-- Row r of the index array, flattened and stood up as a column: entry (e, 0) is idx[r, e]. -/
theorem idx_col (o : Nat) (r : Fin 2) (hr : r.val = o) (a2 : IVec S2x500000 32) (hs : S2x500000.Slices ![o, 0] S1x500000)
    (hc : S1x500000.ShapeCasts S500000) (hb : S500000.BroadcastsInDim S500000x1 ![0]) (e : Fin 500000) :
    broadcastInDim S500000x1 ![0] hb (shapeCast S500000 (extractStridedSlice S1x500000 ![o, 0] a2 hs) hc) (ix2 e (0 : Fin 1))
      = a2 (ix2 r e) := by
  refine (broadcastInDim_apply _ hb _ _ (ix1 e) (fun a => by
    match a with
    | ⟨0, _⟩ => show e.val = if (500000 : Nat) = 1 then 0 else e.val; rw [if_neg (by decide)])).trans ?_
  refine (shapeCast_apply _ hc _ (ix2 (0 : Fin 1) e) (by
    rw [Shape.rowMajor_val_two, Shape.rowMajor_val_one]; show 0 * 500000 + e.val = e.val; omega)).trans ?_
  exact ValueIdx.slice2_axis0_apply o a2 hs (0 : Fin 1) e r (by show r.val = o + 0; omega)

/-- Edge e's gathered user row: the user table's row at idx[0, e], clamped. -/
theorem gatheredUsers_at (a0 : FVec Ideal S100000x256 .f32) (a2 : IVec S2x500000 32) (e : Fin 500000) (k : Fin 256) :
    gatheredUsers a0 a2 (ix2 e k) = a0 (ix2 (rowOf 100000 (by decide) (a2 (ix2 (0 : Fin 2) e))) k) := by
  unfold gatheredUsers
  refine (RowOps.gather_rows_apply gather_S100000x256_S500000x1_S500000x256_1_0_n_n_0_1_1256 rfl rfl rfl rfl rfl rfl _ _ e k (by decide)).trans ?_
  refine congrArg a0 (congrArg (fun r => ix2 r k) (Fin.ext ?_))
  show min (broadcastInDim S500000x1 ![0] bcast_S500000_S500000x1_0
      (shapeCast S500000 (extractStridedSlice S1x500000 ![0, 0] a2 slices_S2x500000_S1x500000_0_0) shapeCasts_S1x500000_S500000)
      (ix2 e (0 : Fin 1))).toInt.toNat (100000 - 1) = min (a2 (ix2 (0 : Fin 2) e)).toInt.toNat (100000 - 1)
  rw [idx_col 0 (0 : Fin 2) rfl a2 slices_S2x500000_S1x500000_0_0 shapeCasts_S1x500000_S500000 bcast_S500000_S500000x1_0 e]

/-- Edge e's gathered movie row: the movie table's row at idx[1, e], clamped. -/
theorem gatheredMovies_at (a1 : FVec Ideal S50000x256 .f32) (a2 : IVec S2x500000 32) (e : Fin 500000) (k : Fin 256) :
    gatheredMovies a1 a2 (ix2 e k) = a1 (ix2 (rowOf 50000 (by decide) (a2 (ix2 (1 : Fin 2) e))) k) := by
  unfold gatheredMovies
  refine (RowOps.gather_rows_apply gather_S50000x256_S500000x1_S500000x256_1_0_n_n_0_1_1256 rfl rfl rfl rfl rfl rfl _ _ e k (by decide)).trans ?_
  refine congrArg a1 (congrArg (fun r => ix2 r k) (Fin.ext ?_))
  show min (broadcastInDim S500000x1 ![0] bcast_S500000_S500000x1_0
      (shapeCast S500000 (extractStridedSlice S1x500000 ![1, 0] a2 slices_S2x500000_S1x500000_1_0) shapeCasts_S1x500000_S500000)
      (ix2 e (0 : Fin 1))).toInt.toNat (50000 - 1) = min (a2 (ix2 (1 : Fin 2) e)).toInt.toNat (50000 - 1)
  rw [idx_col 1 (1 : Fin 2) rfl a2 slices_S2x500000_S1x500000_1_0 shapeCasts_S1x500000_S500000 bcast_S500000_S500000x1_0 e]

theorem w1Top_at (a3 : FVec Ideal S512x256 .f32) (k j : Fin 256) : w1Top a3 (ix2 k j) = a3 (ix2 (lo k) j) :=
  ValueIdx.slice2_axis0_apply 0 _ slices_S512x256_S256x256_0_0 k j (lo k) (by show k.val = 0 + k.val; omega)

theorem w1Bottom_at (a3 : FVec Ideal S512x256 .f32) (k j : Fin 256) : w1Bottom a3 (ix2 k j) = a3 (ix2 (hi k) j) :=
  ValueIdx.slice2_axis0_apply 256 _ slices_S512x256_S256x256_256_0 k j (hi k) rfl

theorem b1Row_at (a4 : FVec Ideal S256 .f32) (j : Fin 256) : b1Row a4 (ix2 (0 : Fin 1) j) = a4 (ix1 j) :=
  shapeCast_apply a4 shapeCasts_S256_S1x256 _ _ (by
    rw [Shape.rowMajor_val_two, Shape.rowMajor_val_one]; show j.val = 0 * 256 + j.val; omega)

theorem w2Row_at (a5 : FVec Ideal S256x1 .f32) (j : Fin 256) : w2Row a5 (ix2 (0 : Fin 1) j) = a5 (ix2 j (0 : Fin 1)) :=
  shapeCast_apply a5 shapeCasts_S256x1_S1x256 _ _ (by
    rw [Shape.rowMajor_val_two, Shape.rowMajor_val_two]; show j.val * 1 + 0 = 0 * 256 + j.val; omega)

theorem b2One_at (a6 : FVec Ideal S1 .f32) : b2One a6 (ix2 (0 : Fin 1) (0 : Fin 1)) = a6 (ix1 (0 : Fin 1)) :=
  shapeCast_apply a6 shapeCasts_S1_S1x1 _ _ (by
    rw [Shape.rowMajor_val_two, Shape.rowMajor_val_one]; rfl)

/-! ## The arrays the region finds -/

variable (m : (ℓ : Loc nD τ sig) → Buf (Elt Ideal) ℓ)

theorem V_users (c : Dev nD) : (V m c main_v6 : FVec Ideal S500000x256 .bf16) = gatheredUsers (m ((c : Thread nD τ).loc main_arg0)) (m ((c : Thread nD τ).loc main_arg2)) := by
  dsimp only [V]
  simp only [hostOps0, hostOps0_1, hostOps0_2, hostOps0_3, List.flatten_cons, List.flatten_nil, List.append_nil, List.cons_append, List.nil_append]
  after_results
  rfl

theorem V_movies (c : Dev nD) : (V m c main_v7 : FVec Ideal S500000x256 .bf16) = gatheredMovies (m ((c : Thread nD τ).loc main_arg1)) (m ((c : Thread nD τ).loc main_arg2)) := by
  dsimp only [V]
  simp only [hostOps0, hostOps0_1, hostOps0_2, hostOps0_3, List.flatten_cons, List.flatten_nil, List.append_nil, List.cons_append, List.nil_append]
  after_results
  rfl

theorem V_w1Top (c : Dev nD) : (V m c main_v9 : FVec Ideal S256x256 .bf16) = w1Top (m ((c : Thread nD τ).loc main_arg3)) := by
  dsimp only [V]
  simp only [hostOps0, hostOps0_1, hostOps0_2, hostOps0_3, List.flatten_cons, List.flatten_nil, List.append_nil, List.cons_append, List.nil_append]
  after_results
  rfl

theorem V_w1Bottom (c : Dev nD) : (V m c main_v10 : FVec Ideal S256x256 .bf16) = w1Bottom (m ((c : Thread nD τ).loc main_arg3)) := by
  dsimp only [V]
  simp only [hostOps0, hostOps0_1, hostOps0_2, hostOps0_3, List.flatten_cons, List.flatten_nil, List.append_nil, List.cons_append, List.nil_append]
  after_results
  rfl

theorem V_b1 (c : Dev nD) : (V m c main_v11 : FVec Ideal S1x256 .f32) = b1Row (m ((c : Thread nD τ).loc main_arg4)) := by
  dsimp only [V]
  simp only [hostOps0, hostOps0_1, hostOps0_2, hostOps0_3, List.flatten_cons, List.flatten_nil, List.append_nil, List.cons_append, List.nil_append]
  after_results
  rfl

theorem V_w2 (c : Dev nD) : (V m c main_v13 : FVec Ideal S1x256 .bf16) = w2Row (m ((c : Thread nD τ).loc main_arg5)) := by
  dsimp only [V]
  simp only [hostOps0, hostOps0_1, hostOps0_2, hostOps0_3, List.flatten_cons, List.flatten_nil, List.append_nil, List.cons_append, List.nil_append]
  after_results
  rfl

theorem V_b2 (c : Dev nD) : (V m c main_v14 : FVec Ideal S1x1 .f32) = b2One (m ((c : Thread nD τ).loc main_arg6)) := by
  dsimp only [V]
  simp only [hostOps0, hostOps0_1, hostOps0_2, hostOps0_3, List.flatten_cons, List.flatten_nil, List.append_nil, List.cons_append, List.nil_append]
  after_results
  rfl

end Cert.KernelIdeal.Host

end
-- ==== Proof.EdgeBlocks.lean ====
/-
  From the kernel's blocks to its whole result array.

  Grid point t works on edges 4000·t to 4000·t + 3999: it reads those rows of the two gathered arrays, the whole of the
  five small arrays, and writes those rows of the result. Row p of what it writes is the score of edge 4000·t + p,
  because row p of each gathered block is that edge's gathered row. The 125 points' blocks tile the 500000 rows, so after
  the run the result array is the score of every edge.
-/
import proofs.«401891_j41059887350179_3_alg».proof.Proof.Gen.KernelIdeal.Value
import proofs.«401891_j41059887350179_3_alg».proof.Proof.BodyScore
import proofs.«401891_j41059887350179_3_alg».proof.Proof.HostSide

set_option maxRecDepth 16384

noncomputable section

namespace Cert.KernelIdeal.Edge

open Cert.KernelIdeal Cert.KernelIdeal.Gen Idealize.ShloMosaic Idealize.ShloMosaic.TcCoe Idealize.SL.Sem
open Idealize.ShloMosaic.Pipeline (Dat)
open Idealize.ShloMosaic.ValueIdx EdgeMlp

variable (m : (ℓ : Loc nD τ sig) → Buf (Elt Ideal) ℓ) (ρ : Dev nD → PrngReg)

/-- The score of every edge, of the argument arrays as launched on core c. -/
abbrev result (c : Dev nD) : S500000x1.Idx → EReal :=
  score (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

theorem zero_offsets : (![0, 0] : Fin 2 → Nat) = fun _ => 0 := funext fun a => by fin_cases a <;> rfl

/-- The printed index maps over the grid: the two gathered windows and the result window are at block (t, 0),
    the five small windows at block (0, 0). -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-! ## Each input block, read at an index -/

/-- Row p of the gathered-user block at point t is the gathered user row of edge E = 4000·t + p. -/
theorem users_block_at (c : Dev nD) (t : Fin cfg0.N) (p : Fin 4000) (k : Fin 256) (E : Fin 500000) (hE : E.val = t.val * 4000 + p.val) :
    iblk m c 0 t (ix2 p k) = (m ((c : Thread nD τ).loc main_arg0)) (ix2 (rowOf 100000 (by decide) ((m ((c : Thread nD τ).loc main_arg2)) (ix2 (0 : Fin 2) E))) k) := by
  show V m c main_v6 (((cfg0.win 0).blk t).view.emb (ix2 p k)) = _
  have hidx : ((cfg0.win 0).blk t).view.emb (ix2 p k) = ix2 E k := funext fun a => Fin.ext (by
    obtain ⟨e0, e1, -⟩ := index_maps t
    match a with
    | ⟨0, _⟩ => show win0_0.index t (0 : Fin 2) * 4000 + 1 * p.val = E.val; omega
    | ⟨1, _⟩ => show win0_0.index t (1 : Fin 2) * 256 + 1 * k.val = k.val; omega)
  rw [hidx]
  exact (congrFun (Host.V_users m c) (ix2 E k)).trans (Host.gatheredUsers_at _ _ E k)

/-- Row p of the gathered-movie block at point t is the gathered movie row of edge E = 4000·t + p. -/
theorem movies_block_at (c : Dev nD) (t : Fin cfg0.N) (p : Fin 4000) (k : Fin 256) (E : Fin 500000) (hE : E.val = t.val * 4000 + p.val) :
    iblk m c 1 t (ix2 p k) = (m ((c : Thread nD τ).loc main_arg1)) (ix2 (rowOf 50000 (by decide) ((m ((c : Thread nD τ).loc main_arg2)) (ix2 (1 : Fin 2) E))) k) := by
  show V m c main_v7 (((cfg0.win 1).blk t).view.emb (ix2 p k)) = _
  have hidx : ((cfg0.win 1).blk t).view.emb (ix2 p k) = ix2 E k := funext fun a => Fin.ext (by
    obtain ⟨-, -, e0, e1, -⟩ := index_maps t
    match a with
    | ⟨0, _⟩ => show win0_1.index t (0 : Fin 2) * 4000 + 1 * p.val = E.val; omega
    | ⟨1, _⟩ => show win0_1.index t (1 : Fin 2) * 256 + 1 * k.val = k.val; omega)
  rw [hidx]
  exact (congrFun (Host.V_movies m c) (ix2 E k)).trans (Host.gatheredMovies_at _ _ E k)

/-- The top-half weight block is the whole top half, at every point. -/
theorem w1Top_block_at (c : Dev nD) (t : Fin cfg0.N) (k j : Fin 256) :
    iblk m c 2 t (ix2 k j) = (m ((c : Thread nD τ).loc main_arg3)) (ix2 (lo k) j) := by
  show V m c main_v9 (((cfg0.win 2).blk t).view.emb (ix2 k j)) = _
  have hidx : ((cfg0.win 2).blk t).view.emb (ix2 k j) = ix2 k j := funext fun a => Fin.ext (by
    obtain ⟨-, -, -, -, e0, e1, -⟩ := index_maps t
    match a with
    | ⟨0, _⟩ => show win0_2.index t (0 : Fin 2) * 256 + 1 * k.val = k.val; omega
    | ⟨1, _⟩ => show win0_2.index t (1 : Fin 2) * 256 + 1 * j.val = j.val; omega)
  rw [hidx]
  exact (congrFun (Host.V_w1Top m c) (ix2 k j)).trans (Host.w1Top_at _ k j)

/-- The bottom-half weight block is the whole bottom half, at every point. -/
theorem w1Bottom_block_at (c : Dev nD) (t : Fin cfg0.N) (k j : Fin 256) :
    iblk m c 3 t (ix2 k j) = (m ((c : Thread nD τ).loc main_arg3)) (ix2 (hi k) j) := by
  show V m c main_v10 (((cfg0.win 3).blk t).view.emb (ix2 k j)) = _
  have hidx : ((cfg0.win 3).blk t).view.emb (ix2 k j) = ix2 k j := funext fun a => Fin.ext (by
    obtain ⟨-, -, -, -, -, -, e0, e1, -⟩ := index_maps t
    match a with
    | ⟨0, _⟩ => show win0_3.index t (0 : Fin 2) * 256 + 1 * k.val = k.val; omega
    | ⟨1, _⟩ => show win0_3.index t (1 : Fin 2) * 256 + 1 * j.val = j.val; omega)
  rw [hidx]
  exact (congrFun (Host.V_w1Bottom m c) (ix2 k j)).trans (Host.w1Bottom_at _ k j)

/-- The first layer's bias row, at every point. -/
theorem b1_block_at (c : Dev nD) (t : Fin cfg0.N) (j : Fin 256) :
    iblk m c 4 t (ix2 (0 : Fin 1) j) = (m ((c : Thread nD τ).loc main_arg4)) (ix1 j) := by
  show V m c main_v11 (((cfg0.win 4).blk t).view.emb (ix2 (0 : Fin 1) j)) = _
  have hidx : ((cfg0.win 4).blk t).view.emb (ix2 (0 : Fin 1) j) = ix2 (0 : Fin 1) j := funext fun a => Fin.ext (by
    obtain ⟨-, -, -, -, -, -, -, -, e0, e1, -⟩ := index_maps t
    match a with
    | ⟨0, _⟩ => show win0_4.index t (0 : Fin 2) * 1 + 1 * 0 = 0; omega
    | ⟨1, _⟩ => show win0_4.index t (1 : Fin 2) * 256 + 1 * j.val = j.val; omega)
  rw [hidx]
  exact (congrFun (Host.V_b1 m c) (ix2 (0 : Fin 1) j)).trans (Host.b1Row_at _ j)

/-- The second layer's weights as a row, at every point. -/
theorem w2_block_at (c : Dev nD) (t : Fin cfg0.N) (j : Fin 256) :
    iblk m c 5 t (ix2 (0 : Fin 1) j) = (m ((c : Thread nD τ).loc main_arg5)) (ix2 j (0 : Fin 1)) := by
  show V m c main_v13 (((cfg0.win 5).blk t).view.emb (ix2 (0 : Fin 1) j)) = _
  have hidx : ((cfg0.win 5).blk t).view.emb (ix2 (0 : Fin 1) j) = ix2 (0 : Fin 1) j := funext fun a => Fin.ext (by
    obtain ⟨-, -, -, -, -, -, -, -, -, -, e0, e1, -⟩ := index_maps t
    match a with
    | ⟨0, _⟩ => show win0_5.index t (0 : Fin 2) * 1 + 1 * 0 = 0; omega
    | ⟨1, _⟩ => show win0_5.index t (1 : Fin 2) * 256 + 1 * j.val = j.val; omega)
  rw [hidx]
  exact (congrFun (Host.V_w2 m c) (ix2 (0 : Fin 1) j)).trans (Host.w2Row_at _ j)

/-- The second layer's bias, at every point. -/
theorem b2_block_at (c : Dev nD) (t : Fin cfg0.N) :
    iblk m c 6 t (ix2 (0 : Fin 1) (0 : Fin 1)) = (m ((c : Thread nD τ).loc main_arg6)) (ix1 (0 : Fin 1)) := by
  show V m c main_v14 (((cfg0.win 6).blk t).view.emb (ix2 (0 : Fin 1) (0 : Fin 1))) = _
  have hidx : ((cfg0.win 6).blk t).view.emb (ix2 (0 : Fin 1) (0 : Fin 1)) = ix2 (0 : Fin 1) (0 : Fin 1) := funext fun a => Fin.ext (by
    obtain ⟨-, -, -, -, -, -, -, -, -, -, -, -, e0, e1, -⟩ := index_maps t
    match a with
    | ⟨0, _⟩ => show win0_6.index t (0 : Fin 2) * 1 + 1 * 0 = 0; omega
    | ⟨1, _⟩ => show win0_6.index t (1 : Fin 2) * 1 + 1 * 0 = 0; omega)
  rw [hidx]
  exact (congrFun (Host.V_b2 m c) (ix2 (0 : Fin 1) (0 : Fin 1))).trans (Host.b2One_at _)

/-! ## What a point writes back, the cover, the final array -/

/-- Point t writes back block t of the score array. -/
theorem flushed_eq (c : Dev nD) (t : Fin cfg0.N) :
    (dats m 0 c).flushed 7 t = ((cfg0.win 7).blk t).view.read (Elt Ideal) (result m c) := by
  rw [Value.flushed7]
  unfold out0_7
  rw [View.canon_unit_zero zero_offsets]
  simp only [View.ld_unit_zero (S := S4000x256) zero_offsets, View.ld_unit_zero (S := S256x256) zero_offsets,
    View.ld_unit_zero (S := S1x256) zero_offsets, View.ld_unit_zero (S := S1x1) zero_offsets]
  funext y
  obtain ⟨p, z, rfl⟩ : ∃ (p : Fin 4000) (z : Fin 1), y = ix2 p z := ⟨y 0, y 1, eq_ix2 y⟩
  obtain rfl : z = 0 := Subsingleton.elim _ _
  obtain ⟨-, -, -, -, -, -, -, -, -, -, -, -, -, -, e70, e71⟩ := index_maps t
  have hlt : t.val * 4000 + p.val < 500000 := by have := t.isLt; have := p.isLt; have hN : cfg0.N = 125 := N_0; omega
  have hE : ((cfg0.win 7).blk t).view.emb (ix2 p (0 : Fin 1)) = ix2 (⟨t.val * 4000 + p.val, hlt⟩ : Fin 500000) (0 : Fin 1) :=
    funext fun a => Fin.ext (by
      match a with
      | ⟨0, _⟩ => show win0_7.index t (0 : Fin 2) * 4000 + 1 * p.val = t.val * 4000 + p.val; omega
      | ⟨1, _⟩ => show win0_7.index t (1 : Fin 2) * 1 + 1 * 0 = 0; omega)
  show k0_pay1 (F := Ideal) (iblk m c 0 t) (iblk m c 1 t) (iblk m c 2 t) (iblk m c 3 t) (iblk m c 4 t) (iblk m c 5 t) (iblk m c 6 t) (ix2 p (0 : Fin 1))
    = result m c (((cfg0.win 7).blk t).view.emb (ix2 p (0 : Fin 1)))
  rw [hE]
  refine (Body.payload_row (iblk m c 0 t) (iblk m c 1 t) (iblk m c 2 t) (iblk m c 3 t) (iblk m c 4 t) (iblk m c 5 t) (iblk m c 6 t) p).trans ?_
  show _ = mlpRow _ _ _ _ _ _ _
  simp only [users_block_at m c t p _ ⟨t.val * 4000 + p.val, hlt⟩ rfl, movies_block_at m c t p _ ⟨t.val * 4000 + p.val, hlt⟩ rfl,
    w1Top_block_at m c t, w1Bottom_block_at m c t, b1_block_at m c t, w2_block_at m c t, b2_block_at m c t]

/-- The result array's index i is in point t's block exactly when its row is one of the block's 4000 rows. -/
theorem mem_block (t : Fin cfg0.N) (i : S500000x1.Idx) :
    i ∈ ((cfg0.win 7).blk t).view.set ↔ ∀ a : Fin 2, win0_7.index t a * S4000x1.size a ≤ (i a).val ∧ (i a).val < win0_7.index t a * S4000x1.size a + S4000x1.size a := by
  show i ∈ ((View.whole main_v15).slice (win0_7.rect t)).set ↔ _
  rw [View.set_slice_whole, Rect.mem_set_unit]
  exact Iff.rfl

/-- Every row of the result is in the block of the point its row number divided by 4000 names. -/
theorem covered (i : S500000x1.Idx) : ∃ t : Fin cfg0.N, (cfg0.win 7).flush t = true ∧ i ∈ ((cfg0.win 7).blk t).view.set := by
  have hi0 : (i 0).val < 500000 := (i 0).isLt
  have hi1 : (i 1).val < 1 := (i 1).isLt
  have hN : cfg0.N = 125 := N_0
  refine ⟨⟨(i 0).val / 4000, by omega⟩, flush0_7 _, ?_⟩
  rw [mem_block]
  obtain ⟨-, -, -, -, -, -, -, -, -, -, -, -, -, -, e70, e71⟩ := index_maps ⟨(i 0).val / 4000, by omega⟩
  intro a
  match a with
  | ⟨0, _⟩ =>
    show win0_7.index ⟨(i 0).val / 4000, _⟩ (0 : Fin 2) * 4000 ≤ (i 0).val ∧ (i 0).val < win0_7.index ⟨(i 0).val / 4000, _⟩ (0 : Fin 2) * 4000 + 4000
    rw [e70]; show (i 0).val / 4000 * 4000 ≤ (i 0).val ∧ (i 0).val < (i 0).val / 4000 * 4000 + 4000; omega
  | ⟨1, _⟩ =>
    show win0_7.index ⟨(i 0).val / 4000, _⟩ (1 : Fin 2) * 1 ≤ (i 1).val ∧ (i 1).val < win0_7.index ⟨(i 0).val / 4000, _⟩ (1 : Fin 2) * 1 + 1
    rw [e71]; omega

/-- After the run the result array is the score of every edge. -/
theorem final (c : Dev nD) : (dats m 0 c).arrAt 7 cfg0.N = result m c :=
  (dats m 0 c).arrAt_eq_of_cover 7 (result m c) (fun t _ => flushed_eq m c t) covered

/-- The kernel's run, read: the result array at the score of the arguments, the arguments unchanged. -/
theorem run : θ_run defs (onTc (τ := τ) (main (F := Ideal))) ⟨m, fun _ => 0, ρ⟩ fun r => ∀ c : Dev nD,
      r.2.mem ((c : Thread nD τ).loc main_v15) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Edge

end
-- ==== Proof.RefScore.lean ====
/-
  The reference program computes the edge score, provided no row number is negative.

  The reference first replaces a negative row number i by i + N (the wrap-around of array indexing) and only then
  gathers, the gather clamping into the table. For a row number that is not negative the replacement changes nothing,
  so the gathered row is the table's row at the clamped row number. The reference then joins the user row and the movie
  row into one row of 512 entries and contracts it against all 512 rows of the first layer's weights: that one sum is the
  user half's sum plus the movie half's sum. The rest is the same arithmetic, entry by entry.
-/
import proofs.«401891_j41059887350179_3_alg».proof.Proof.Gen.ReferenceIdeal.Read
import proofs.«401891_j41059887350179_3_alg».proof.Proof.EdgeSpec
import proofs.«401891_j41059887350179_3_alg».proof.Proof.LibRowGatherScatter
import Idealize.ShloMosaic.Lib.StableHlo.Predicate

noncomputable section

namespace Cert.ReferenceIdeal.Edge

open Cert.ReferenceIdeal Cert.ReferenceIdeal.Gen Cert.ReferenceIdeal.Read Idealize.ShloMosaic Idealize.ShloMosaic.ValueIdx EdgeMlp

/-! ## A row number that is not negative is not wrapped -/

/-- The test "a < 0" fails on a word whose test "a ≥ 0" holds. -/
theorem not_slt_zero (a : BitVec 32) (h : IntOp.cmpi .sge a 0#32 = 1#1) : IntOp.cmpi .slt a 0#32 = 0#1 := by
  have hb : (0#32 : BitVec 32).sle a = true := (StableHlo.Predicate.ofBool_eq_one_iff _).1 h
  show BitVec.ofBool (a.slt 0#32) = 0#1
  rw [BitVec.sle_eq_not_slt] at hb
  have hs : a.slt 0#32 = false := by simpa using hb
  rw [hs]; rfl

/-- So the wrap-around select keeps it, whatever the wrapped value would have been. -/
theorem wrap_keeps (a b : BitVec 32) (h : IntOp.cmpi .sge a 0#32 = 1#1) :
    Scalar.select (IntOp.cmpi .slt a 0#32) b a = a := by
  rw [not_slt_zero a h, select_zero]

/-! ## The two rows of row numbers -/

/-- Reading the flattened row 0 at e is reading the index array at (0, e). -/
theorem idx_row0 (e : Fin 500000) : idx_main_v0 (idx_main_v1 (ix1 e)) = ix2 (0 : Fin 2) e := by
  funext a
  apply Fin.ext
  match a with
  | ⟨0, _⟩ => rfl
  | ⟨1, _⟩ => have h := e.isLt; show e.val % 500000 = e.val; omega

/-- Reading the flattened row 1 at e is reading the index array at (1, e). -/
theorem idx_row1 (e : Fin 500000) : idx_main_v9 (idx_main_v10 (ix1 e)) = ix2 (1 : Fin 2) e := by
  funext a
  apply Fin.ext
  match a with
  | ⟨0, _⟩ => rfl
  | ⟨1, _⟩ => have h := e.isLt; show e.val % 500000 = e.val; omega

/-- Row 0 of the index array, flattened: entry e is idx[0, e]. -/
theorem row0_at (x2 : (⟨S2x500000, .i32⟩ : BufTy).Contents (Elt Ideal)) (e : Fin 500000) : val_main_v1 (F := Ideal) x2 (ix1 e) = x2 (ix2 (0 : Fin 2) e) := by
  rw [val_main_v1_apply, val_main_v0_apply, idx_row0]

/-- Row 1 of the index array, flattened: entry e is idx[1, e]. -/
theorem row1_at (x2 : (⟨S2x500000, .i32⟩ : BufTy).Contents (Elt Ideal)) (e : Fin 500000) : val_main_v10 (F := Ideal) x2 (ix1 e) = x2 (ix2 (1 : Fin 2) e) := by
  rw [val_main_v10_apply, val_main_v9_apply, idx_row1]

/-- The column of user row numbers the gather reads: idx[0, e], unwrapped because it is not negative. -/
theorem ucol_at (x2 : (⟨S2x500000, .i32⟩ : BufTy).Contents (Elt Ideal)) (hnn : ∀ i, IntOp.cmpi .sge (x2 i) 0#32 = 1#1) (e : Fin 500000) :
    val_main_v7 (F := Ideal) x2 (ix2 e (0 : Fin 1)) = x2 (ix2 (0 : Fin 2) e) := by
  rw [val_main_v7_apply, val_main_v6_apply, val_main_v3_apply, val_main_v2_apply, val_main_c_apply]
  have h1 : val_main_v1 (F := Ideal) x2 (idx_main_v7 (ix2 e (0 : Fin 1))) = x2 (ix2 (0 : Fin 2) e) := row0_at x2 e
  rw [h1]
  exact wrap_keeps _ _ (hnn _)

/-- The column of movie row numbers the gather reads: idx[1, e]. -/
theorem mcol_at (x2 : (⟨S2x500000, .i32⟩ : BufTy).Contents (Elt Ideal)) (hnn : ∀ i, IntOp.cmpi .sge (x2 i) 0#32 = 1#1) (e : Fin 500000) :
    val_main_v16 (F := Ideal) x2 (ix2 e (0 : Fin 1)) = x2 (ix2 (1 : Fin 2) e) := by
  rw [val_main_v16_apply, val_main_v15_apply, val_main_v12_apply, val_main_v11_apply, val_main_c_1_apply]
  have h1 : val_main_v10 (F := Ideal) x2 (idx_main_v16 (ix2 e (0 : Fin 1))) = x2 (ix2 (1 : Fin 2) e) := row1_at x2 e
  rw [h1]
  exact wrap_keeps _ _ (hnn _)

/-! ## The gathered rows and the joined row -/

/-- The gathered user row of edge e: the user table's row at idx[0, e], clamped. -/
theorem urow_at (x0 : (⟨S100000x256, .f32⟩ : BufTy).Contents (Elt Ideal)) (x2 : (⟨S2x500000, .i32⟩ : BufTy).Contents (Elt Ideal)) (hnn : ∀ i, IntOp.cmpi .sge (x2 i) 0#32 = 1#1) (e : Fin 500000) (k : Fin 256) :
    val_main_v8 (F := Ideal) x0 x2 (ix2 e k) = x0 (ix2 (rowOf 100000 (by decide) (x2 (ix2 (0 : Fin 2) e))) k) := by
  unfold val_main_v8
  refine (RowOps.gather_rows_apply gather_S100000x256_S500000x1_S500000x256_1_0_n_n_0_1_1256 rfl rfl rfl rfl rfl rfl x0 _ e k (by decide)).trans ?_
  refine congrArg x0 (congrArg (fun r => ix2 r k) (Fin.ext ?_))
  show min (val_main_v7 (F := Ideal) x2 (ix2 e (0 : Fin 1))).toInt.toNat (100000 - 1) = min (x2 (ix2 (0 : Fin 2) e)).toInt.toNat (100000 - 1)
  rw [ucol_at x2 hnn e]

/-- The gathered movie row of edge e: the movie table's row at idx[1, e], clamped. -/
theorem mrow_at (x1 : (⟨S50000x256, .f32⟩ : BufTy).Contents (Elt Ideal)) (x2 : (⟨S2x500000, .i32⟩ : BufTy).Contents (Elt Ideal)) (hnn : ∀ i, IntOp.cmpi .sge (x2 i) 0#32 = 1#1) (e : Fin 500000) (k : Fin 256) :
    val_main_v17 (F := Ideal) x1 x2 (ix2 e k) = x1 (ix2 (rowOf 50000 (by decide) (x2 (ix2 (1 : Fin 2) e))) k) := by
  unfold val_main_v17
  refine (RowOps.gather_rows_apply gather_S50000x256_S500000x1_S500000x256_1_0_n_n_0_1_1256 rfl rfl rfl rfl rfl rfl x1 _ e k (by decide)).trans ?_
  refine congrArg x1 (congrArg (fun r => ix2 r k) (Fin.ext ?_))
  show min (val_main_v16 (F := Ideal) x2 (ix2 e (0 : Fin 1))).toInt.toNat (50000 - 1) = min (x2 (ix2 (1 : Fin 2) e)).toInt.toNat (50000 - 1)
  rw [mcol_at x2 hnn e]

/-- The first 256 entries of the joined row are the user row. -/
theorem joined_lo (x0 : (⟨S100000x256, .f32⟩ : BufTy).Contents (Elt Ideal)) (x1 : (⟨S50000x256, .f32⟩ : BufTy).Contents (Elt Ideal)) (x2 : (⟨S2x500000, .i32⟩ : BufTy).Contents (Elt Ideal)) (e : Fin 500000) (k : Fin 256) :
    val_main_v18 (F := Ideal) x0 x1 x2 (ix2 e (lo k)) = val_main_v8 (F := Ideal) x0 x2 (ix2 e k) := by
  unfold val_main_v18
  exact concatenate_pair_apply_left (1 : Fin S500000x512.rank) (val_main_v8 (F := Ideal) x0 x2) (val_main_v17 (F := Ideal) x1 x2)
    concatenates_S500000x256_S500000x256_S500000x512_d1 (ix2 e (lo k)) rfl (ix2 e k) (fun b => by
    match b with
    | ⟨0, _⟩ => rfl
    | ⟨1, _⟩ => rfl)

/-- The last 256 entries of the joined row are the movie row. -/
theorem joined_hi (x0 : (⟨S100000x256, .f32⟩ : BufTy).Contents (Elt Ideal)) (x1 : (⟨S50000x256, .f32⟩ : BufTy).Contents (Elt Ideal)) (x2 : (⟨S2x500000, .i32⟩ : BufTy).Contents (Elt Ideal)) (e : Fin 500000) (k : Fin 256) :
    val_main_v18 (F := Ideal) x0 x1 x2 (ix2 e (hi k)) = val_main_v17 (F := Ideal) x1 x2 (ix2 e k) := by
  unfold val_main_v18
  exact concatenate_pair_apply_right (1 : Fin S500000x512.rank) (val_main_v8 (F := Ideal) x0 x2) (val_main_v17 (F := Ideal) x1 x2)
    concatenates_S500000x256_S500000x256_S500000x512_d1 (ix2 e (hi k)) rfl rfl (ix2 e k) (fun b hb => by
    match b, hb with
    | ⟨0, _⟩, _ => rfl
    | ⟨1, _⟩, hb => exact absurd rfl hb) (by show k.val + 256 = 256 + k.val; omega)

/-! ## The reference's result -/

/-- The reference's result is the edge score of its arguments. -/
theorem result_eq (x0 : (⟨S100000x256, .f32⟩ : BufTy).Contents (Elt Ideal)) (x1 : (⟨S50000x256, .f32⟩ : BufTy).Contents (Elt Ideal)) (x2 : (⟨S2x500000, .i32⟩ : BufTy).Contents (Elt Ideal)) (x3 : (⟨S512x256, .f32⟩ : BufTy).Contents (Elt Ideal)) (x4 : (⟨S256, .f32⟩ : BufTy).Contents (Elt Ideal)) (x5 : (⟨S256x1, .f32⟩ : BufTy).Contents (Elt Ideal)) (x6 : (⟨S1, .f32⟩ : BufTy).Contents (Elt Ideal))
    (hnn : ∀ i, IntOp.cmpi .sge (x2 i) 0#32 = 1#1) :
    val_main_v27 (F := Ideal) x0 x1 x2 x3 x4 x5 x6 = score x0 x1 x2 x3 x4 x5 x6 := by
  funext i
  obtain ⟨e, z, rfl⟩ : ∃ (e : Fin 500000) (z : Fin 1), i = ix2 e z := ⟨i 0, i 1, eq_ix2 i⟩
  obtain rfl : z = 0 := Subsingleton.elim _ _
  rw [val_main_v27_apply, val_main_v24_apply, val_main_v26_apply, val_main_v25_apply]
  unfold score mlpRow
  refine congrArg₂ (· + ·) (Finset.sum_congr rfl fun j _ => ?_)
    (congrArg x6 (funext fun a => Fin.ext (by match a with | ⟨0, _⟩ => rfl)))
  rw [val_main_v23_apply, val_main_v22_apply, val_main_v19_apply, val_main_v21_apply, val_main_v20_apply,
    val_main_call0_v0_apply, val_main_call0_cst_apply]
  -- the stages' index functions, spelt by coordinates
  have el : ∀ k : Fin 512, lidx_main_v19 (lidx_main_v24 (ix2 e (0 : Fin 1)) j) k = ix2 e k := fun k =>
    funext fun a => Fin.ext (by match a with | ⟨0, _⟩ => rfl | ⟨1, _⟩ => rfl)
  have er : ∀ k : Fin 512, ridx_main_v19 (lidx_main_v24 (ix2 e (0 : Fin 1)) j) k = ix2 k j := fun k =>
    funext fun a => Fin.ext (by match a with | ⟨0, _⟩ => rfl | ⟨1, _⟩ => rfl)
  have e4 : idx_main_v20 (idx_main_v21 (lidx_main_v24 (ix2 e (0 : Fin 1)) j)) = ix1 j :=
    funext fun a => Fin.ext (by match a with | ⟨0, _⟩ => rfl)
  have e5 : ridx_main_v24 (ix2 e (0 : Fin 1)) j = ix2 j (0 : Fin 1) :=
    funext fun a => Fin.ext (by match a with | ⟨0, _⟩ => rfl | ⟨1, _⟩ => rfl)
  simp only [el, er]
  rw [e4, e5, contract_joined (fun k => val_main_v18 (F := Ideal) x0 x1 x2 (ix2 e k)) (fun k => x3 (ix2 k j))
    (fun k => x0 (ix2 (rowOf 100000 (by decide) (x2 (ix2 (0 : Fin 2) e))) k))
    (fun k => x1 (ix2 (rowOf 50000 (by decide) (x2 (ix2 (1 : Fin 2) e))) k))
    (fun k => (joined_lo x0 x1 x2 e k).trans (urow_at x0 x2 hnn e k))
    (fun k => (joined_hi x0 x1 x2 e k).trans (mrow_at x1 x2 hnn e k))]
  rfl

end Cert.ReferenceIdeal.Edge

end
-- ==== Proof.PreRows.lean ====
/-
  What the precondition says about the index array: every row number is at least zero.

  The precondition is a conjunction of "all" tests; its last conjunct is "all entries of the index array are ≥ 0" as a
  signed comparison. A conjunction that holds has every conjunct holding, and an "all" that holds, holds at each entry.
-/
import proofs.«401891_j41059887350179_3_alg».proof.Pre_finite_inputs
import proofs.«401891_j41059887350179_3_alg».proof.Proof.Gen.Pre_finite_inputs
import Idealize.ShloMosaic.Lib.ReduceAll
import Idealize.ShloMosaic.Lib.ValueIdx

noncomputable section

namespace Cert.Pre_finite_inputs.Rows

open Cert.Pre_finite_inputs Cert.Pre_finite_inputs.Gen Idealize.ShloMosaic Idealize.ShloMosaic.ValueIdx

instance : Subsingleton S_.Idx := ⟨fun _ _ => funext fun d => d.elim0⟩

/-- Under the precondition every entry of the index array passes the signed test "≥ 0". -/
theorem nonneg {F : FTy → Type} [FloatOps F] (a0 : FVec F S100000x256 .f32) (a1 : FVec F S50000x256 .f32)
    (a2 : IVec S2x500000 32) (a3 : FVec F S512x256 .f32) (a4 : FVec F S256 .f32) (a5 : FVec F S256x1 .f32)
    (a6 : FVec F S1 .f32) (h : fn (F := F) a0 a1 a2 a3 a4 a5 a6 = fun _ => 1#1) (i : S2x500000.Idx) :
    IntOp.cmpi .sge (a2 i) 0#32 = 1#1 := by
  have h0 := congrFun h ix0
  dsimp only [fn, fn_part1] at h0
  have h31 := (IntOp.andi_eq_one.1 h0).2
  exact Host.reduce_andi_all _ _ _ _ _ h31 i

end Cert.Pre_finite_inputs.Rows

end
-- ==== Proof.lean ====
/-
  An edge decoder: for each of 500000 edges, gather a user row and a movie row by the edge's two row numbers and score
  the pair with a two-layer perceptron, relu(u·A + m·B + b1)·w2 + b2, where A and B are the top and bottom 256 rows of
  the first layer's weights.

  The kernel gathers on the host and runs the perceptron in a pallas_call over blocks of 4000 edges, as two 256-wide
  matrix products added; the reference joins the two rows into one of 512 entries and takes one 512-wide product. Over
  the extended reals the two are the same sum, split in two: only associativity and commutativity of addition are used,
  so the finiteness of the float inputs is never opened.

  The two programs treat a NEGATIVE row number differently: the reference wraps it (i + N) before its clamping gather,
  the kernel's gather clamps it to row 0. The precondition therefore also says that no row number is negative; at or
  above N both gathers clamp to the last row alike. Under it the wrap is the identity and both programs read the same
  rows.

  The frames of the two kernel programs are the generated ones; the reference's frame is its generated run with the
  result forgotten; the idealization rewrote nothing, so "preserves" is trivial.
-/
import proofs.«401891_j41059887350179_3_alg».proof.Defs
import proofs.«401891_j41059887350179_3_alg».proof.Proof.Gen.Kernel
import proofs.«401891_j41059887350179_3_alg».proof.Proof.Gen.Kernel.Skeleton
import proofs.«401891_j41059887350179_3_alg».proof.Proof.Gen.Kernel.Launch
import proofs.«401891_j41059887350179_3_alg».proof.Proof.Gen.Kernel.Points
import proofs.«401891_j41059887350179_3_alg».proof.Proof.Gen.Kernel.Frame
import proofs.«401891_j41059887350179_3_alg».proof.Proof.Gen.KernelIdeal
import proofs.«401891_j41059887350179_3_alg».proof.Proof.Gen.KernelIdeal.Skeleton
import proofs.«401891_j41059887350179_3_alg».proof.Proof.Gen.KernelIdeal.Launch
import proofs.«401891_j41059887350179_3_alg».proof.Proof.Gen.KernelIdeal.Points
import proofs.«401891_j41059887350179_3_alg».proof.Proof.Gen.KernelIdeal.Frame
import proofs.«401891_j41059887350179_3_alg».proof.Proof.Gen.ReferenceIdeal
import proofs.«401891_j41059887350179_3_alg».proof.Proof.Gen.Pre_finite_inputs
import proofs.«401891_j41059887350179_3_alg».proof.Proof.Gen.KernelIdeal.Value
import proofs.«401891_j41059887350179_3_alg».proof.Proof.Gen.ReferenceIdeal.Run
import proofs.«401891_j41059887350179_3_alg».proof.Proof.Gen.ReferenceIdeal.Read
import proofs.«401891_j41059887350179_3_alg».proof.Proof.EdgeBlocks
import proofs.«401891_j41059887350179_3_alg».proof.Proof.RefScore
import proofs.«401891_j41059887350179_3_alg».proof.Proof.PreRows
import Idealize.ShloMosaic.Adequacy
import Idealize.ShloMosaic.Init

noncomputable section

namespace Cert.Proof

open Idealize.ShloMosaic Idealize.SL.Sem

namespace EdgeClaims

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both programs end with the score of every edge, of arguments that agree: the kernel's result array by its blocks,
    the reference's by its operations read one at a time, its row numbers nonnegative because the kernel's are. -/
theorem algebraic : Cert.algebraic_KernelIdeal_ReferenceIdeal := by
  intro m ρ m' ρ' hpre hagree
  refine ⟨fun c => Cert.KernelIdeal.Edge.result m c, Cert.KernelIdeal.Edge.run m ρ, ?_⟩
  refine (θ_run Cert.ReferenceIdeal.defs _ _).mono (fun _ h c => ⟨(h c).1.trans ?_, (h c).2⟩)
    (Cert.ReferenceIdeal.Value.run (F := Ideal) m' ρ')
  have hnn : ∀ i, IntOp.cmpi .sge (m' ((c.tc : Thread Cert.ReferenceIdeal.nD Cert.ReferenceIdeal.τ).loc Cert.ReferenceIdeal.main_arg2) i) 0#32 = 1#1 := by
    intro i
    rw [(hagree c).2.2.1]
    exact Cert.Pre_finite_inputs.Rows.nonneg _ _ _ _ _ _ _ (hpre c) i
  rw [Cert.ReferenceIdeal.Read.val_main_v27_eq, Cert.ReferenceIdeal.Edge.result_eq _ _ _ _ _ _ _ hnn,
    (hagree c).1, (hagree c).2.1, (hagree c).2.2.1, (hagree c).2.2.2.1, (hagree c).2.2.2.2.1, (hagree c).2.2.2.2.2.1,
    (hagree c).2.2.2.2.2.2]

end EdgeClaims

theorem claim : Cert.Claim := ⟨Cert.Kernel.Gen.facts, Cert.KernelIdeal.Gen.facts, Cert.ReferenceIdeal.Gen.facts, Cert.Pre_finite_inputs.Gen.facts,
  EdgeClaims.frame_kernel, EdgeClaims.frame_kernel_ideal, EdgeClaims.frame_reference, trivial, EdgeClaims.algebraic⟩

end Cert.Proof

end
